-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  reducesTo_S_S_d : S_.ReducesTo [] S_

variable [Facts]

def fn_part1 {F : FTy → Type} [FloatOps F] (main_arg4 : FVec F S_ .f32) (main_v12 : IVec S_ 1) (main_v15 : IVec S_ 1) : IVec S_ 1 :=
  let main_v16 : IVec S_ 1 := andi main_v12 main_v15
  let main_v17 : FVec F S_ .f32 := Host.absf main_arg4
  let main_cst_6 : FVec F S_ .f32 := constant S_ .f32 0x7F800000#32
  let main_v18 : IVec S_ 1 := cmpf .olt main_v17 main_cst_6
  let main_c_7 : IVec S_ 1 := constantI S_ 1 1#1
  let main_v19 : IVec S_ 1 := (fun x v => Host.reduce IntOp.andi x v reducesTo_S_S_d h_S_) main_v18 main_c_7
  let main_v20 : IVec S_ 1 := andi main_v16 main_v19
  main_v20

def fn {F : FTy → Type} [FloatOps F] (main_arg0 : FVec F S32768x4096 .f32) (main_arg1 : FVec F S32768x4096 .f32) (main_arg2 : FVec F S_ .f32) (main_arg3 : FVec F S_ .f32) (main_arg4 : FVec F S_ .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S32768x4096 .f32 := Host.absf main_arg1
  let main_cst_0 : FVec F S_ .f32 := constant S_ .f32 0x7F800000#32
  let main_v5 : FVec F S32768x4096 .f32 := broadcastInDim S32768x4096 ![] bcast_S_S32768x4096 main_cst_0
  let main_v6 : IVec S32768x4096 1 := cmpf .olt main_v4 main_v5
  let main_c_1 : IVec S_ 1 := constantI S_ 1 1#1
  let main_v7 : IVec S_ 1 := (fun x v => Host.reduce IntOp.andi x v reducesTo_S32768x4096_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg4 main_v12 main_v15
-- ==== Kernel.lean ====
abbrev S32768x4096 : Shape := ⟨2, ![32768, 4096]⟩
abbrev S_ : Shape := ⟨0, ![]⟩
abbrev S32768 : Shape := ⟨1, ![32768]⟩
abbrev S256x4096 : Shape := ⟨2, ![256, 4096]⟩
abbrev S256 : Shape := ⟨1, ![256]⟩

abbrev nBuf : Space → Nat
  | .hbm => 51
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S32768x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S32768, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S32768, .f32⟩
  | .hbm, ⟨43, _⟩ => ⟨S32768, .f32⟩
  | .hbm, ⟨44, _⟩ => ⟨S_, .f32⟩
  | .hbm, ⟨45, _⟩ => ⟨S_, .f32⟩
  | .hbm, ⟨46, _⟩ => ⟨S32768, .f32⟩
  | .hbm, ⟨47, _⟩ => ⟨S32768, .f32⟩
  | .hbm, ⟨48, _⟩ => ⟨S_, .f32⟩
  | .hbm, ⟨49, _⟩ => ⟨S32768, .f32⟩
  | .hbm, ⟨50, _⟩ => ⟨S32768, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256, .f32⟩
  | .local _ .vmem, ⟨5, _⟩ => ⟨S256, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_cst_9 : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_11 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  inb_S256_S256_0 : ∀ a, (![0] : Fin 1 → Nat) a + S256.size a ≤ S256.size a
  h_S256 : 0 < S256.numel
  reducesTo_S32768_S_d0 : S32768.ReducesTo [0] S_
  h_S_ : 0 < S_.numel
  bcast_S_S32768 : S_.BroadcastsInDim S32768 (![] : Fin 0 → Fin S32768.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S32768x4096.size a
  hwx0_0 : ∀ i : grid0.Coords, EltTy.bits .f32 = 32 ∨ (Rect.block (s := S32768x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S32768x4096.size a
  hwx0_1 : ∀ i : grid0.Coords, EltTy.bits .f32 = 32 ∨ (Rect.block (s := S32768x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S32768.size a
  hwx0_2 : ∀ i : grid0.Coords, EltTy.bits .f32 = 32 ∨ (Rect.block (s := S32768) S256.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S_ : Shape := ⟨0, ![]⟩
abbrev S32768 : Shape := ⟨1, ![32768]⟩

abbrev nBuf : Space → Nat
  | .hbm => 57
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S32768x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S32768x4096, .f32⟩
  | .hbm, ⟨6, _⟩ => ⟨S32768x4096, .f32⟩
  | .hbm, ⟨7, _⟩ => ⟨S_, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32768, .f32⟩
  | .hbm, ⟨17, _⟩ => ⟨S32768, .f32⟩
  | .hbm, ⟨18, _⟩ => ⟨S32768, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S32768, .f32⟩
  | .hbm, ⟨49, _⟩ => ⟨S32768, .f32⟩
  | .hbm, ⟨50, _⟩ => ⟨S_, .f32⟩
  | .hbm, ⟨51, _⟩ => ⟨S_, .f32⟩
  | .hbm, ⟨52, _⟩ => ⟨S32768, .f32⟩
  | .hbm, ⟨53, _⟩ => ⟨S32768, .f32⟩
  | .hbm, ⟨54, _⟩ => ⟨S_, .f32⟩
  | .hbm, ⟨55, _⟩ => ⟨S32768, .f32⟩
  | .hbm, ⟨56, _⟩ => ⟨S32768, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_cst_10 : Ref sig .tc := ⟨.hbm, 43, rfl⟩
abbrev main_v27 : Ref sig .tc := ⟨.hbm, 44, rfl⟩
abbrev main_cst_11 : Ref sig .tc := ⟨.hbm, 45, rfl⟩
abbrev main_call0_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_12 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_13 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  reducesTo_S32768x4096_S32768_d1 : S32768x4096.ReducesTo [1] S32768
  h_S_ : 0 < S_.numel
  bcast_S_S32768 : S_.BroadcastsInDim S32768 (![] : Fin 0 → Fin S32768.rank)
  reducesTo_S32768_S_d0 : S32768.ReducesTo [0] S_

variable [Facts₀]

class Facts : Prop extends Facts₀ where

variable [Facts]
-- ==== Proof.Welford.lean ====
/-
  The part both programs share: from the vector `r` of the 32768 per-row mean squared errors and the three running
  scalars (count, mean, M2), the batch mean and the batch's sum of squared deviations are merged into the running
  statistics by Chan's parallel update, the standard deviation is taken from the merged M2 (or is 1 while fewer than two
  samples have been seen), and each row's error is centred by the merged mean, divided by (std + eps) and scaled by 0.01.
  Both programs apply exactly this chain of host operations, with the same literal words, to their own `r`; so it is
  named here once, as ONE function of `r` and the scalars, and is never opened: equal `r` give equal results.
-/
import Idealize.ShloMosaic.PureOps
import Idealize.ShloMosaic.PureOps.Ideal

noncomputable section

namespace Cert.RowMse

open Idealize.ShloMosaic

/-- One entry per batch row. -/
abbrev Rows : Shape := ⟨1, ![32768]⟩
/-- A scalar. -/
abbrev Scal : Shape := ⟨0, ![]⟩

/-- Chan's merge of the batch's (mean, M2) into the running (count, mean, M2), then `0.01 · (r − mean') / (std' + eps)`,
    over the extended reals. The words: 0x47000000 = 32768 (the batch size), 0x3F800000 = 1, 0x40000000 = 2,
    0x322BCC77 = eps, 0x3C23D70A = the scale; they are the same on both sides and are never evaluated. -/
def welfordNormalize (hred : Rows.ReducesTo [0] Scal) (hpos : 0 < Scal.numel)
    (hb : Scal.BroadcastsInDim Rows (![] : Fin 0 → Fin Rows.rank))
    (r : FVec Ideal Rows .f32) (cnt mean m2 : FVec Ideal Scal .f32) : FVec Ideal Rows .f32 :=
  let n : FVec Ideal Scal .f32 := constant (F := Ideal) Scal .f32 0x47000000#32
  let zero : FVec Ideal Scal .f32 := constant (F := Ideal) Scal .f32 0x00000000#32
  let one : FVec Ideal Scal .f32 := constant (F := Ideal) Scal .f32 0x3F800000#32
  let two : FVec Ideal Scal .f32 := constant (F := Ideal) Scal .f32 0x40000000#32
  let eps : FVec Ideal Scal .f32 := constant (F := Ideal) Scal .f32 0x322BCC77#32
  let scale : FVec Ideal Scal .f32 := constant (F := Ideal) Scal .f32 0x3C23D70A#32
  -- the batch's mean and its sum of squared deviations
  let bMean : FVec Ideal Scal .f32 := Host.divf (F := Ideal) (Host.reduceAdd (F := Ideal) r zero hred hpos) n
  let dev : FVec Ideal Rows .f32 := subf r (broadcastInDim Rows ![] hb bMean)
  let bM2 : FVec Ideal Scal .f32 := Host.reduceAdd (F := Ideal) (mulf dev dev) zero hred hpos
  -- the merge
  let newCount : FVec Ideal Scal .f32 := addf cnt n
  let delta : FVec Ideal Scal .f32 := subf bMean mean
  let newMean : FVec Ideal Scal .f32 := addf mean (Host.divf (F := Ideal) (mulf delta n) newCount)
  let newM2 : FVec Ideal Scal .f32 :=
    addf (addf m2 bM2) (Host.divf (F := Ideal) (mulf (mulf (mulf delta delta) cnt) n) newCount)
  -- the running standard deviation
  let var : FVec Ideal Scal .f32 := Host.divf (F := Ideal) newM2 (maximumf (subf newCount one) one)
  let std : FVec Ideal Scal .f32 :=
    select (cmpf .olt newCount two) (id one) (addf (Host.sqrt (F := Ideal) var) eps)
  -- the normalized, scaled rows
  mulf (broadcastInDim Rows ![] hb scale)
    (Host.divf (F := Ideal) (subf r (broadcastInDim Rows ![] hb newMean)) (broadcastInDim Rows ![] hb (addf std eps)))

end Cert.RowMse

end
-- ==== Proof.RowValue.lean ====
/-
  The per-row value. For argument arrays `a`, `b` of 32768 rows by 4096 lanes, row `r`'s mean squared error is
      rowMse a b r = (Σ_k (a[r,k] − b[r,k])²) / 4096
  over the extended reals: the sum of the 4096 squared differences of the row, divided by the word 0x45800000 (= 4096).
  The kernel computes it on a block of 256 rows at a time (a lane reduction from the neutral accumulator, then a
  division by the splat 4096); `blockMean_apply` reads that block computation at a row `p` of the block.
  No law beyond reading the operations at an index is needed: the sum has the same terms in the same indexing on both sides.
-/
import Idealize.ShloMosaic.PureOps
import Idealize.ShloMosaic.PureOps.Ideal
import Idealize.ShloMosaic.PureOps.Ideal.Laws
import Idealize.ShloMosaic.Lib.ValueIdx
import proofs.«163155_j53781580480581_1_alg».proof.Proof.Welford

noncomputable section

namespace Cert.RowMse

open Idealize.ShloMosaic Idealize.ShloMosaic.ValueIdx
open scoped BigOperators

/-- The argument arrays: 32768 rows of 4096 lanes. -/
abbrev Mat : Shape := ⟨2, ![32768, 4096]⟩
/-- One block of the kernel: 256 rows of 4096 lanes; -/
abbrev Blk : Shape := ⟨2, ![256, 4096]⟩
/-- and its 256 per-row results. -/
abbrev BlkRows : Shape := ⟨1, ![256]⟩

/-- Row `r`'s mean squared error: the sum over the row's 4096 lanes of the squared difference, over 4096. -/
def rowMseOf (a b : Mat.Idx → EReal) (r : Fin 32768) : EReal :=
  Ideal.div (∑ k : Fin 4096, (a (ix2 r k) - b (ix2 r k)) * (a (ix2 r k) - b (ix2 r k))) (Ideal.ofBits .f32 0x45800000#32)

/-- All rows. -/
def rowMse (a b : Mat.Idx → EReal) : Rows.Idx → EReal := fun i => rowMseOf a b (i 0)

theorem rowMse_ix1 (a b : Mat.Idx → EReal) (r : Fin 32768) : rowMse a b (ix1 r) = rowMseOf a b r := rfl

/-- The index over row `p` of a block's results with lane `k` put back on the reduced axis is (p, k). -/
theorem lift_ix1 (h : Blk.Reduces [1] BlkRows) (p : Fin 256) (k : Fin 4096) :
    h.lift (ix1 p) k = ix2 p k :=
  funext fun a => Fin.ext (by match a with | ⟨0, _⟩ => rfl | ⟨1, _⟩ => rfl)

/-- The block computation at row `p`: the lane sum of the squared differences of the block's row `p`, over 4096. -/
theorem blockMean_apply (h : Blk.Reduces [1] BlkRows) (hφ : FKind.Formats .f32)
    (hacc : (0x00000000#32 : BitVec FTy.f32.bits) = FKind.add.neutral .f32 hφ)
    (x0 x1 : FVec Ideal Blk .f32) (p : Fin 256) :
    divf (multiReduction (F := Ideal) .add [1] BlkRows (mulf (subf x0 x1) (subf x0 x1)) 0x00000000#32 h hφ hacc)
        (broadcast BlkRows (Scalar.ofBits (F := Ideal) .f32 0x45800000#32)) (ix1 p)
      = Ideal.div (∑ k : Fin 4096, (x0 (ix2 p k) - x1 (ix2 p k)) * (x0 (ix2 p k) - x1 (ix2 p k)))
          (Ideal.ofBits .f32 0x45800000#32) := by
  rw [divf_apply, broadcast_apply]
  refine congrArg₂ Ideal.div ?_ rfl
  refine (Ideal.multiReduction_add_single (mulf (subf x0 x1) (subf x0 x1)) 0x00000000#32 h hφ hacc (ix1 p)).trans ?_
  refine Finset.sum_congr rfl fun k _ => ?_
  rw [lift_ix1 h p k, mulf_apply, subf_apply]

end Cert.RowMse

end
-- ==== Proof.KernelRows.lean ====
/-
  The kernel's output array after the region is `rowMse` of the two argument arrays.
  Grid point `t` (of 128) stages rows 256·t … 256·t + 255 of both arguments, whole in the lane axis, and writes back
  the 256 results of those rows: result `p` of the block is the lane sum of the squared differences of the block's
  row `p`, over 4096 — which is `rowMse` at row 256·t + p, because row `p` of the block IS row 256·t + p of each
  array. The 128 blocks of 256 tile the 32768 rows (row `r` lies in block `r / 256`), so the array ends holding `rowMse`.
-/
import proofs.«163155_j53781580480581_1_alg».proof.Proof.Gen.KernelIdeal.Frame
import proofs.«163155_j53781580480581_1_alg».proof.Proof.RowValue
import Idealize.ShloMosaic.Lib.Pipeline.Value

set_option maxRecDepth 16384

noncomputable section

namespace Cert.RowMse.Kern

open Cert.KernelIdeal Cert.KernelIdeal.Gen Idealize.ShloMosaic Idealize.ShloMosaic.TcCoe Idealize.ShloMosaic.ValueIdx
open Idealize.SL.Sem Cert.RowMse
open Idealize.ShloMosaic.Pipeline (Dat)
open scoped BigOperators

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl

/-- The body's stored value at result `j` of a block: the lane sum of the squared differences of the block's row
    `j`, over 4096. -/
theorem pay_apply (x0 x1 : Vec Ideal S256x4096 .f32) (j : S256.Idx) :
    k0_pay1 (F := Ideal) x0 x1 j
      = Ideal.div (∑ k : Fin 4096, (x0 (ix2 (j 0) k) - x1 (ix2 (j 0) k)) * (x0 (ix2 (j 0) k) - x1 (ix2 (j 0) k)))
          (Ideal.ofBits .f32 0x45800000#32) := by
  obtain ⟨p, rfl⟩ : ∃ p : Fin 256, j = ix1 p := ⟨j 0, eq_ix1 j⟩
  unfold k0_pay1
  exact blockMean_apply _ _ _ x0 x1 p

/-- The printed index maps over the grid: both inputs' row-block index is the output's, their lane-block index is 0. -/
theorem idx_facts : ∀ t : Fin cfg0.N, win0_0.index t (0 : Fin 2) = win0_2.index t (0 : Fin 1)
    ∧ win0_0.index t (1 : Fin 2) = 0
    ∧ win0_1.index t (0 : Fin 2) = win0_2.index t (0 : Fin 1)
    ∧ win0_1.index t (1 : Fin 2) = 0 :=
  (by decide +kernel : ∀ t : Fin grid0.N, _)

/-- Every row block is some point's. -/
theorem idx_onto : ∀ q : Fin 128, ∃ t : Fin cfg0.N, win0_2.index t = ![q.val] :=
  (by decide +kernel : ∀ q : Fin 128, ∃ t : Fin grid0.N, win0_2.index t = ![q.val])

/-- WHAT POINT `t` WRITES BACK is block `t` of `rowMse` of the argument arrays as the region finds them. -/
theorem flushed_eq (c : Dev nD) (t : Fin cfg0.N) :
    (dats m 0 c).flushed 2 t
      = ((cfg0.win 2).blk t).view.read (Elt Ideal) (rowMse (V m c main_arg0) (V m c main_arg1)) := by
  show (cfg0.win 2).cut (grid0.coords t) ((dats m 0 c).after 2 t) = _
  rw [after0_2]
  unfold out0_2
  rw [View.canon_unit_zero hz1]
  simp only [View.ld_unit_zero (S := S256x4096) hz2]
  obtain ⟨e0, e1, e2, e3⟩ := idx_facts t
  funext j
  show k0_pay1 (F := Ideal) (iblk m c 0 t) (iblk m c 1 t) j
    = rowMse (V m c main_arg0) (V m c main_arg1) (((cfg0.win 2).blk t).view.emb j)
  refine (pay_apply (iblk m c 0 t) (iblk m c 1 t) j).trans ?_
  unfold rowMse rowMseOf
  refine congrArg₂ Ideal.div (Finset.sum_congr rfl fun k _ => ?_) rfl
  -- row `j` of each input block, lane `k`, is the array at (the output block's row for `j`, k)
  have h0 : iblk m c 0 t (ix2 (j 0) k) = V m c main_arg0 (ix2 ((((cfg0.win 2).blk t).view.emb j) 0) k) := by
    show V m c main_arg0 (((cfg0.win 0).blk t).view.emb (ix2 (j 0) k)) = _
    refine congrArg (V m c main_arg0) (funext fun a => Fin.ext ?_)
    match a with
    | ⟨0, _⟩ => show win0_0.index t (0 : Fin 2) * 256 + 1 * (j 0).val = win0_2.index t (0 : Fin 1) * 256 + 1 * (j 0).val; omega
    | ⟨1, _⟩ => show win0_0.index t (1 : Fin 2) * 4096 + 1 * k.val = k.val; omega
  have h1 : iblk m c 1 t (ix2 (j 0) k) = V m c main_arg1 (ix2 ((((cfg0.win 2).blk t).view.emb j) 0) k) := by
    show V m c main_arg1 (((cfg0.win 1).blk t).view.emb (ix2 (j 0) k)) = _
    refine congrArg (V m c main_arg1) (funext fun a => Fin.ext ?_)
    match a with
    | ⟨0, _⟩ => show win0_1.index t (0 : Fin 2) * 256 + 1 * (j 0).val = win0_2.index t (0 : Fin 1) * 256 + 1 * (j 0).val; omega
    | ⟨1, _⟩ => show win0_1.index t (1 : Fin 2) * 4096 + 1 * k.val = k.val; omega
  rw [h0, h1]

/-- A row of the output array is in point `t`'s block iff it is one of the block's 256 rows. -/
theorem mem_blk (t : Fin cfg0.N) (i : S32768.Idx) :
    i ∈ ((cfg0.win 2).blk t).view.set
      ↔ ∀ a : Fin 1, win0_2.index t a * S256.size a ≤ (i a).val ∧ (i a).val < win0_2.index t a * S256.size a + S256.size a := by
  show i ∈ ((View.whole main_v0).slice (win0_2.rect t)).set ↔ _
  rw [View.set_slice_whole, Rect.mem_set_unit]
  exact Iff.rfl

/-- Every row is in some flushing point's block: row `r` in block `r / 256`. -/
theorem cover (i : S32768.Idx) :
    ∃ t : Fin cfg0.N, (cfg0.win 2).flush t = true ∧ i ∈ ((cfg0.win 2).blk t).view.set := by
  have hi : (i 0).val < 32768 := (i 0).isLt
  obtain ⟨t, ht⟩ := idx_onto ⟨(i 0).val / 256, by omega⟩
  have q0 : win0_2.index t (0 : Fin 1) = (i 0).val / 256 := congrFun ht 0
  refine ⟨t, flush0_2 t, ?_⟩
  rw [mem_blk]
  intro a
  match a with
  | ⟨0, _⟩ => show win0_2.index t (0 : Fin 1) * 256 ≤ (i 0).val ∧ (i 0).val < win0_2.index t (0 : Fin 1) * 256 + 256; omega

/-- THE OUTPUT ARRAY after the region: `rowMse` of the two argument arrays. -/
theorem final (c : Dev nD) :
    (dats m 0 c).arrAt 2 cfg0.N
      = rowMse (m ((c : Thread nD τ).loc main_arg0)) (m ((c : Thread nD τ).loc main_arg1)) :=
  (dats m 0 c).arrAt_eq_of_cover 2 (rowMse (V m c main_arg0) (V m c main_arg1)) (fun t _ => flushed_eq m c t) cover

end Cert.RowMse.Kern

end
-- ==== Proof.KernelTail.lean ====
/-
  The kernel program's host operations after the region, read back. Whatever the buffers hold when the region ends
  (a valuation `W`), the 45 operations that follow — 34 of @main, the two of the call that selects the standard
  deviation, 9 more of @main — leave in the result buffer `welfordNormalize` of `W`'s contents of the region's output
  array and of the three scalar arguments: each operation writes its own buffer from buffers written before it, so the
  result is the operations' composition, and that composition is `welfordNormalize`'s own text.
-/
import proofs.«163155_j53781580480581_1_alg».proof.Proof.Gen.KernelIdeal.Launch
import proofs.«163155_j53781580480581_1_alg».proof.Proof.Welford
import Idealize.ShloMosaic.Lib.StableHlo.Run

noncomputable section

namespace Cert.RowMse.Kern

open Cert.KernelIdeal Cert.KernelIdeal.Gen Idealize.ShloMosaic Idealize.ShloMosaic.TcCoe Idealize.SL.Sem
open Idealize.ShloMosaic.StableHlo Cert.RowMse

set_option maxRecDepth 8192 in
set_option maxHeartbeats 2000000 in
/-- The result buffer after the operations that follow the region, from any contents `W` at the region's end. -/
theorem tail_result (W : Valuation τ sig (Elt Ideal)) :
    StableHlo.after (List.flatten [hostOps1, hostOps1_1, hostOps1_2] : List (HloOp τ sig (Elt Ideal))) W (Proc.devRef .tc main_v31)
      = welfordNormalize reducesTo_S32768_S_d0 h_S_ bcast_S_S32768
          (W (Proc.devRef .tc main_v0)) (W (Proc.devRef .tc main_arg2)) (W (Proc.devRef .tc main_arg3)) (W (Proc.devRef .tc main_arg4)) := by
  simp only [hostOps1, hostOps1_1, hostOps1_2, List.flatten_cons, List.flatten_nil, List.append_nil, List.cons_append,
    List.nil_append]
  after_results_simp
  unfold welfordNormalize
  rfl

end Cert.RowMse.Kern

end
-- ==== Proof.KernelValue.lean ====
/-
  The kernel program's run, with its result named. The region leaves `rowMse` of the arguments in its output array and
  touches no other unscoped buffer; the host operations after it read that array and the three scalar arguments, so the
  result buffer ends at `welfordNormalize` of `rowMse` of the arguments and of the scalars. The five argument arrays
  end as they began: the two staged ones are inputs of the region, the scalars are written by nothing.
-/
import proofs.«163155_j53781580480581_1_alg».proof.Proof.KernelRows
import proofs.«163155_j53781580480581_1_alg».proof.Proof.KernelTail

set_option maxRecDepth 16384

noncomputable section

namespace Cert.RowMse.Kern

open Cert.KernelIdeal Cert.KernelIdeal.Gen Idealize.ShloMosaic Idealize.ShloMosaic.TcCoe Idealize.SL.Sem Cert.RowMse

variable (m : (ℓ : Loc nD τ sig) → Buf (Elt Ideal) ℓ) (ρ : Dev nD → PrngReg)

/-- What the host operations after the region leave in the result buffer. -/
theorem result_eq (c : Dev nD) :
    Pipeline.afterTail₀ cfgs (dats m) 0 (V0 m) [hostOps1, hostOps1_1, hostOps1_2] c main_v31
      = welfordNormalize reducesTo_S32768_S_d0 h_S_ bcast_S_S32768
          (rowMse (m ((c : Thread nD τ).loc main_arg0)) (m ((c : Thread nD τ).loc main_arg1)))
          (m ((c : Thread nD τ).loc main_arg2)) (m ((c : Thread nD τ).loc main_arg3)) (m ((c : Thread nD τ).loc main_arg4)) := by
  unfold Pipeline.afterTail₀
  refine (tail_result _).trans ?_
  -- the region's output array holds `rowMse`; the scalars are no array of the region and hold their launch contents
  have hr : (Pipeline.withArrays (cfgs 0).spec c (V0 m c) (fun w => (dats m 0 c).arrAt w (cfgs 0).N) (Proc.devRef .tc main_v0)
      : FVec Ideal Rows .f32) = rowMse (m ((c : Thread nD τ).loc main_arg0)) (m ((c : Thread nD τ).loc main_arg1)) :=
    (Pipeline.withArrays_arr spec0 launch0.win.arr_inj c _ _ 2).trans (final m c)
  have h2 : (Pipeline.withArrays (cfgs 0).spec c (V0 m c) (fun w => (dats m 0 c).arrAt w (cfgs 0).N) (Proc.devRef .tc main_arg2)
      : FVec Ideal Scal .f32) = m ((c : Thread nD τ).loc main_arg2) :=
    (Pipeline.withArrays_of_ne _ c (V0 m c) _ main_arg2 (by exact (by decide : ∀ w, Pipeline.arrRef spec0 w ≠ main_arg2))).trans (V_main_arg2 m c)
  have h3 : (Pipeline.withArrays (cfgs 0).spec c (V0 m c) (fun w => (dats m 0 c).arrAt w (cfgs 0).N) (Proc.devRef .tc main_arg3)
      : FVec Ideal Scal .f32) = m ((c : Thread nD τ).loc main_arg3) :=
    (Pipeline.withArrays_of_ne _ c (V0 m c) _ main_arg3 (by exact (by decide : ∀ w, Pipeline.arrRef spec0 w ≠ main_arg3))).trans (V_main_arg3 m c)
  have h4 : (Pipeline.withArrays (cfgs 0).spec c (V0 m c) (fun w => (dats m 0 c).arrAt w (cfgs 0).N) (Proc.devRef .tc main_arg4)
      : FVec Ideal Scal .f32) = m ((c : Thread nD τ).loc main_arg4) :=
    (Pipeline.withArrays_of_ne _ c (V0 m c) _ main_arg4 (by exact (by decide : ∀ w, Pipeline.arrRef spec0 w ≠ main_arg4))).trans (V_main_arg4 m c)
  exact congr (congr (congr (congrArg (welfordNormalize reducesTo_S32768_S_d0 h_S_ bcast_S_S32768) hr) h2) h3) h4

/-- The frame run re-posted: the result buffer at its function of the arguments, the arguments unchanged. -/
theorem run : θ_run defs (onTc (τ := τ) (main (F := Ideal))) ⟨m, fun _ => 0, ρ⟩ fun r => ∀ c : Dev nD,
      r.2.mem ((c.tc : Thread nD τ).loc main_v31)
        = welfordNormalize reducesTo_S32768_S_d0 h_S_ bcast_S_S32768
            (rowMse (m ((c : Thread nD τ).loc main_arg0)) (m ((c : Thread nD τ).loc main_arg1)))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v31 (Pipeline.mem_restRefs_of main_v31 (by decide) (by decide))).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.RowMse.Kern

end
-- ==== Proof.RefRow.lean ====
/-
  The reference's per-row stage is `rowMse`. The reference subtracts and squares the whole arrays, sums over the lane
  axis from the initial value 0 and divides by the broadcast 4096: at row `r` that is
  `(0 + Σ_k (a[r,k] − b[r,k])²) / 4096`, and the initial zero drops out of the sum.
-/
import proofs.«163155_j53781580480581_1_alg».proof.Proof.Gen.ReferenceIdeal.Read
import proofs.«163155_j53781580480581_1_alg».proof.Proof.RowValue

noncomputable section

namespace Cert.RowMse.Ref

open Cert.ReferenceIdeal Cert.ReferenceIdeal.Read Idealize.ShloMosaic Idealize.ShloMosaic.ValueIdx Cert.RowMse
open scoped BigOperators

/-- The source index the row sum reads at lane `k` of row `r` is (r, k). -/
theorem idx_row (r : Fin 32768) (k : Fin 4096) : idx_main_v2 (ix1 r) k = ix2 r k :=
  funext fun a => Fin.ext (by match a with | ⟨0, _⟩ => rfl | ⟨1, _⟩ => rfl)

/-- The reference's row stage (subtract, square, sum over lanes from 0, divide by 4096) is `rowMse`, row by row. -/
theorem rowStage_eq (a b : (⟨S32768x4096, .f32⟩ : BufTy).Contents (Elt Ideal)) :
    val_main_v4 (F := Ideal) a b = rowMse a b := by
  funext i
  obtain ⟨r, rfl⟩ : ∃ r : Fin 32768, i = ix1 r := ⟨i 0, eq_ix1 i⟩
  rw [rowMse_ix1, val_main_v4_apply, val_main_v2_apply, val_main_v3_apply, val_main_cst_0_apply, val_main_cst_apply]
  unfold rowMseOf
  simp only [val_main_v1_apply, val_main_v0_apply, idx_row, Ideal.hostDivf_def, Ideal.mulf_def, Ideal.subf_def,
    Ideal.ofBits_def, Ideal.ofBits_zero_f32, zero_add]

end Cert.RowMse.Ref

end
-- ==== Proof.RefValue.lean ====
/-
  The reference's result. Its run ends with the result buffer at the composed term of its 52 host operations; the first
  seven of them are the per-row stage (which is `rowMse`), and the rest are `welfordNormalize`'s own text applied to that
  stage and to the three scalar arguments.
-/
import proofs.«163155_j53781580480581_1_alg».proof.Proof.RefRow

noncomputable section

namespace Cert.RowMse.Ref

open Cert.ReferenceIdeal Cert.ReferenceIdeal.Gen Cert.ReferenceIdeal.Read Cert.ReferenceIdeal.Value
open Idealize.ShloMosaic Idealize.ShloMosaic.TcCoe Idealize.SL.Sem Cert.RowMse

variable (m : (ℓ : Loc nD τ sig) → Buf (Elt Ideal) ℓ)

set_option maxRecDepth 8192 in
/-- The run's result term is the shared chain applied to the reference's row stage. -/
theorem result_stage (c : Dev nD) :
    res_main_v35 (F := Ideal) m c
      = welfordNormalize reducesTo_S32768_S_d0 h_S_ bcast_S_S32768
          (val_main_v4 (F := Ideal) (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) := by
  unfold res_main_v35 welfordNormalize val_main_v4 val_main_v3 val_main_cst_0 val_main_v2 val_main_cst val_main_v1 val_main_v0
  rfl

/-- The reference's result: the shared chain applied to `rowMse` of the arguments. -/
theorem result_eq (c : Dev nD) :
    res_main_v35 (F := Ideal) m c
      = welfordNormalize reducesTo_S32768_S_d0 h_S_ bcast_S_S32768
          (rowMse (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) :=
  (result_stage m c).trans (congrArg
    (fun r => welfordNormalize reducesTo_S32768_S_d0 h_S_ bcast_S_S32768 r
      (m ((c.tc : Thread nD τ).loc main_arg2)) (m ((c.tc : Thread nD τ).loc main_arg3)) (m ((c.tc : Thread nD τ).loc main_arg4)))
    (rowStage_eq _ _))

end Cert.RowMse.Ref

end
-- ==== Proof.lean ====
/-
  Row-wise mean squared error followed by a running-statistics normalization: the kernel program against its
  reference, over the extended reals.

  From z_pred and z_target (32768 rows by 4096 lanes) and the running scalars (count, mean, M2) both programs compute
      r[i] = (Σ_k (z_pred[i,k] − z_target[i,k])²) / 4096
      out  = 0.01 · (r − mean') / (std' + eps)
  where mean' and std' come from merging the batch statistics of r into the running ones (Chan's parallel update).
  The kernel computes r in 128 blocks of 256 rows, each block a lane reduction from the neutral accumulator followed by
  a division by the splat 4096; the reference reduces the whole array over its lane axis from the initial value 0 and
  divides by the broadcast 4096. Row by row these are one sum of the same 4096 terms over the same divisor
  (Proof/RowValue.lean; the kernel's side Proof/KernelRows.lean, the reference's Proof/RefRow.lean). Everything after r
  is the same chain of operations with the same constants in both programs; it is carried as one function of r and the
  scalars (Proof/Welford.lean) and never opened (Proof/KernelTail.lean, Proof/KernelValue.lean, Proof/RefValue.lean).
  No law is used beyond 0 + x = x, so the equality does not lean on the inputs being finite.

  The frames of the two kernel programs are their generated frame certificates; the reference's is its generated run with
  the result dropped. The idealization rewrote no operation, so the preservation claim is `True`.
-/
import proofs.«163155_j53781580480581_1_alg».proof.Defs
import proofs.«163155_j53781580480581_1_alg».proof.Proof.Gen.Kernel
import proofs.«163155_j53781580480581_1_alg».proof.Proof.Gen.Kernel.Skeleton
import proofs.«163155_j53781580480581_1_alg».proof.Proof.Gen.Kernel.Launch
import proofs.«163155_j53781580480581_1_alg».proof.Proof.Gen.Kernel.Points
import proofs.«163155_j53781580480581_1_alg».proof.Proof.Gen.Kernel.Frame
import proofs.«163155_j53781580480581_1_alg».proof.Proof.Gen.KernelIdeal
import proofs.«163155_j53781580480581_1_alg».proof.Proof.Gen.KernelIdeal.Skeleton
import proofs.«163155_j53781580480581_1_alg».proof.Proof.Gen.KernelIdeal.Launch
import proofs.«163155_j53781580480581_1_alg».proof.Proof.Gen.KernelIdeal.Points
import proofs.«163155_j53781580480581_1_alg».proof.Proof.Gen.KernelIdeal.Frame
import proofs.«163155_j53781580480581_1_alg».proof.Proof.Gen.ReferenceIdeal
import proofs.«163155_j53781580480581_1_alg».proof.Proof.Gen.Pre_finite_inputs
import proofs.«163155_j53781580480581_1_alg».proof.Proof.Gen.ReferenceIdeal.Run
import proofs.«163155_j53781580480581_1_alg».proof.Proof.Gen.ReferenceIdeal.Read
import proofs.«163155_j53781580480581_1_alg».proof.Proof.KernelValue
import proofs.«163155_j53781580480581_1_alg».proof.Proof.RefValue
import Idealize.ShloMosaic.Adequacy
import Idealize.ShloMosaic.Init

noncomputable section

namespace Cert.Proof

open Idealize.ShloMosaic Idealize.SL.Sem Cert.RowMse

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments both programs end with the result buffer at the shared chain applied
    to `rowMse` of the two arrays and to the three scalars: the kernel's run and the reference's run name the same term. -/
theorem algebraic : Cert.algebraic_KernelIdeal_ReferenceIdeal := by
  intro m ρ m' ρ' _ hagree
  refine ⟨_, Cert.RowMse.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.RowMse.Ref.result_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
